-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S1x1x1024x64 : Shape := ⟨4, ![1, 1, 1024, 64]⟩
abbrev S1024x64 : Shape := ⟨2, ![1024, 64]⟩
abbrev S1x1x256x64 : Shape := ⟨4, ![1, 1, 256, 64]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x1024x64_S1x1x256x64_0_0_0_0 : ∀ a, (![0, 0, 0, 0] : Fin 4 → Nat) a + S1x1x256x64.size a ≤ S1x1x1024x64.size a
  h_S1x1x256x64 : 0 < S1x1x256x64.numel
  shapeCasts_S1x1x256x64_S256x64 : S1x1x256x64.ShapeCasts S256x64
  reduces_S256x1024_S256 : S256x1024.Reduces [1] S256
  shapeCasts_S256_S256x1 : S256.ShapeCasts S256x1
  broadcasts_S256x1_S256x1024 : S256x1.Broadcasts S256x1024
  broadcasts_S256x1_S256x64 : S256x1.Broadcasts S256x64
  shapeCasts_S256x64_S1x1x256x64 : S256x64.ShapeCasts S1x1x256x64
  inb_S1x1x1024x64_S1x1x256x64_0_0_256_0 : ∀ a, (![0, 0, 256, 0] : Fin 4 → Nat) a + S1x1x256x64.size a ≤ S1x1x1024x64.size a
  inb_S1x1x1024x64_S1x1x256x64_0_0_512_0 : ∀ a, (![0, 0, 512, 0] : Fin 4 → Nat) a + S1x1x256x64.size a ≤ S1x1x1024x64.size a
  inb_S1x1x1024x64_S1x1x256x64_0_0_768_0 : ∀ a, (![0, 0, 768, 0] : Fin 4 → Nat) a + S1x1x256x64.size a ≤ S1x1x1024x64.size a
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S8x16x1024x64.size a
  hwx0_3 : ∀ i : grid0.Coords, EltTy.bits .f32 = 32 ∨ (Rect.block (s := S8x16x1024x64) S1x1x1024x64.size (cc0_transform_3 i) (hinb0_3 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x1024, .f32⟩
  | .hbm, ⟨4, _⟩ => ⟨S_, .f32⟩
  | .hbm, ⟨5, _⟩ => ⟨S8x16x1024x1024, .f32⟩
  | .hbm, ⟨6, _⟩ => ⟨S8x16x1024x1024, .f32⟩
  | .hbm, ⟨7, _⟩ => ⟨S_, .f32⟩
  | .hbm, ⟨8, _⟩ => ⟨S8x16x1024, .f32⟩
  | .hbm, ⟨9, _⟩ => ⟨S_, .f32⟩
  | .hbm, ⟨10, _⟩ => ⟨S8x16x1024, .f32⟩
  | .hbm, ⟨11, _⟩ => ⟨S8x16x1024, .f32⟩
  | .hbm, ⟨12, _⟩ => ⟨S8x16x1024x1, .f32⟩
  | .hbm, ⟨13, _⟩ => ⟨S8x16x1024x1024, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S8x16x1024x1, .f32⟩
  | .hbm, ⟨19, _⟩ => ⟨S8x16x1024x1024, .f32⟩
  | .hbm, ⟨20, _⟩ => ⟨S8x16x1024x1024, .f32⟩
  | .hbm, ⟨21, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.LibSoftmax.lean ====
/-
  SOFTMAX-WEIGHTED MEANS OF ONE ROW, in two arrangements, and their agreement on finite data.

  For one query row `q` (length `d`), keys `k` (`n` rows of length `d`), one value column `v` (length `n`) and a scale `c`:
  the scores are `s j = c · ⟨q, k j⟩`, the weights `w j = exp (s j - max s)`, and the result is `(∑ j, w j · v j) / ∑ j, w j`.
  One arrangement scales the query first (`∑ e, (q e · c) · k j e`) and divides ONCE, after the weighted sum
  (`deferred`: a kernel that keeps the unnormalised weights and normalises its small output); the other scales the finished
  inner product (`(∑ e, q e · k j e) · c`), takes the maximum against the starting value once more, and divides every
  weight before the weighted sum (`normalised`: `jax.nn.softmax` of scaled scores followed by a product with the values).
  Everything is stated on the extended reals with the operations' conventions there (`Ideal.exp`, `Ideal.div`).

  `deferred_eq_normalised` (data given as coerced reals) and `deferred_eq_normalised_of_finite` (data known to be finite
  entry by entry): on finite data, with the maximum folded from `⊥`, the sum accumulated from `0` and at least one key, the
  two agree. The scores agree by distributivity over a finite sum of reals; the folded maximum of reals over a nonempty
  index set is a real; the weights' sum is a positive real; dividing a finite sum by a nonzero real is dividing termwise.
  None of this holds at infinite entries, where multiplication no longer distributes over addition.
-/
import Idealize.ShloMosaic.PureOps.Ideal
import Mathlib.Analysis.SpecialFunctions.Exp

noncomputable section

open scoped BigOperators

namespace Cert.LibSoftmax

open Idealize.ShloMosaic

variable {n d : Nat}

/-- The maximum of a row of scores, folded from the starting value `lo`. -/
def rowMax (lo : EReal) (s : Fin n → EReal) : EReal := (Finset.univ : Finset (Fin n)).fold max lo s

/-- The scores with the scale folded into the query: `∑ e, (q e · c) · k j e`. -/
def scoresPre (c : EReal) (q : Fin d → EReal) (k : Fin n → Fin d → EReal) : Fin n → EReal :=
  fun j => ∑ e : Fin d, (q e * c) * k j e

/-- The scores with the scale applied to the inner product: `(∑ e, q e · k j e) · c`. -/
def scoresPost (c : EReal) (q : Fin d → EReal) (k : Fin n → Fin d → EReal) : Fin n → EReal :=
  fun j => (∑ e : Fin d, q e * k j e) * c

/-- The unnormalised weights `exp (s j - m)`. -/
def weights (m : EReal) (s : Fin n → EReal) : Fin n → EReal := fun j => Ideal.exp (s j - m)

/-- The weighted sum divided once by the weights' sum. -/
def deferred (c lo : EReal) (q : Fin d → EReal) (k : Fin n → Fin d → EReal) (v : Fin n → EReal) : EReal :=
  Ideal.div (∑ j : Fin n, weights (rowMax lo (scoresPre c q k)) (scoresPre c q k) j * v j)
    (∑ j : Fin n, weights (rowMax lo (scoresPre c q k)) (scoresPre c q k) j)

/-- Every weight divided by the weights' sum (accumulated from `z`), then the weighted sum. -/
def normalised (c lo z : EReal) (q : Fin d → EReal) (k : Fin n → Fin d → EReal) (v : Fin n → EReal) : EReal :=
  ∑ j : Fin n, Ideal.div (weights (max lo (rowMax lo (scoresPost c q k))) (scoresPost c q k) j)
      (z + ∑ j' : Fin n, weights (max lo (rowMax lo (scoresPost c q k))) (scoresPost c q k) j') * v j

/-- The coercion of a finite sum of reals is the sum of the coercions. -/
theorem coe_finsum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of two coerced reals is the coercion of their maximum. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum of coerced reals folded from `⊥` is `⊥` over no index, and a coerced real otherwise. -/
theorem fold_max_coe {ι : Type} [DecidableEq ι] (t : Finset ι) (f : ι → ℝ) :
    (t = ∅ ∧ t.fold max (⊥ : EReal) (fun i => (f i : EReal)) = ⊥)
      ∨ ∃ r : ℝ, t.fold max (⊥ : EReal) (fun i => (f i : EReal)) = (r : EReal) := by
  induction t using Finset.induction_on with
  | empty => exact Or.inl ⟨rfl, Finset.fold_empty⟩
  | insert a t ha ih =>
    right
    rw [Finset.fold_insert ha]
    rcases ih with ⟨_, h⟩ | ⟨r, h⟩
    · rw [h]; exact ⟨f a, max_eq_left bot_le⟩
    · rw [h]; exact ⟨max (f a) r, coe_max' _ _⟩

/-- The two arrangements agree once both score functions are one real function. -/
theorem core_eq {n : Nat} (hn : 0 < n) (s : Fin n → ℝ) (v' : Fin n → ℝ) :
    Ideal.div (∑ j : Fin n, weights (rowMax ⊥ (fun j => (s j : EReal))) (fun j => (s j : EReal)) j * (v' j : EReal))
        (∑ j : Fin n, weights (rowMax ⊥ (fun j => (s j : EReal))) (fun j => (s j : EReal)) j)
      = ∑ j : Fin n, Ideal.div (weights (max ⊥ (rowMax ⊥ (fun j => (s j : EReal)))) (fun j => (s j : EReal)) j)
          (0 + ∑ j' : Fin n, weights (max ⊥ (rowMax ⊥ (fun j => (s j : EReal)))) (fun j => (s j : EReal)) j') * (v' j : EReal) := by
  classical
  haveI : Nonempty (Fin n) := ⟨⟨0, hn⟩⟩
  -- the folded maximum is a real
  obtain ⟨mr, hmr⟩ : ∃ mr : ℝ, rowMax (⊥ : EReal) (fun j : Fin n => (s j : EReal)) = (mr : EReal) := by
    rcases fold_max_coe (Finset.univ : Finset (Fin n)) s with ⟨he, _⟩ | h
    · exact absurd he Finset.univ_nonempty.ne_empty
    · exact h
  have hmax : max (⊥ : EReal) (mr : EReal) = (mr : EReal) := max_eq_right bot_le
  -- the weights are coerced reals
  have hw : weights (mr : EReal) (fun j : Fin n => (s j : EReal))
      = fun j => ((Real.exp (s j - mr) : ℝ) : EReal) := by
    funext j
    simp only [weights]
    rw [← EReal.coe_sub, Ideal.exp_coe]
  -- their sum is a positive real
  have hLpos : 0 < ∑ j : Fin n, Real.exp (s j - mr) :=
    Finset.sum_pos (fun j _ => Real.exp_pos _) Finset.univ_nonempty
  have hL : (∑ j : Fin n, Real.exp (s j - mr)) ≠ 0 := ne_of_gt hLpos
  rw [hmr, hmax, hw, zero_add, ← coe_finsum, Ideal.div_coe hL]
  have hnum : (∑ j : Fin n, ((Real.exp (s j - mr) : ℝ) : EReal) * (v' j : EReal))
      = ((∑ j : Fin n, Real.exp (s j - mr) * v' j : ℝ) : EReal) := by
    rw [coe_finsum]
    refine Finset.sum_congr rfl (fun j _ => ?_)
    rw [EReal.coe_mul]
  rw [hnum, ← EReal.coe_mul, Finset.sum_mul, coe_finsum]
  refine Finset.sum_congr rfl (fun j _ => ?_)
  rw [Ideal.div_coe hL, ← EReal.coe_mul, ← EReal.coe_mul]
  congr 1; ring

/-- On real data, with a real scale, the maximum folded from `⊥` and the sum accumulated from `0`, over at least one key:
    dividing the weighted sum once is dividing every weight first. -/
theorem deferred_eq_normalised {n d : Nat} (hn : 0 < n) (c' : ℝ) (q' : Fin d → ℝ) (k' : Fin n → Fin d → ℝ) (v' : Fin n → ℝ) :
    deferred (c' : EReal) ⊥ (fun e => (q' e : EReal)) (fun j e => (k' j e : EReal)) (fun j => (v' j : EReal))
      = normalised (c' : EReal) ⊥ 0 (fun e => (q' e : EReal)) (fun j e => (k' j e : EReal)) (fun j => (v' j : EReal)) := by
  -- both score functions are the coercion of one real function
  have hpre : scoresPre (c' : EReal) (fun e => (q' e : EReal)) (fun j e => (k' j e : EReal))
      = fun j => (((∑ e : Fin d, q' e * k' j e) * c' : ℝ) : EReal) := by
    funext j
    simp only [scoresPre]
    rw [Finset.sum_mul, coe_finsum]
    refine Finset.sum_congr rfl (fun e _ => ?_)
    rw [← EReal.coe_mul, ← EReal.coe_mul]
    congr 1; ring
  have hpost : scoresPost (c' : EReal) (fun e => (q' e : EReal)) (fun j e => (k' j e : EReal))
      = fun j => (((∑ e : Fin d, q' e * k' j e) * c' : ℝ) : EReal) := by
    funext j
    simp only [scoresPost]
    rw [EReal.coe_mul, coe_finsum]
    simp only [EReal.coe_mul]
  unfold deferred normalised
  rw [hpre, hpost]
  exact core_eq hn (fun j => (∑ e : Fin d, q' e * k' j e) * c') v'

/-- The same for data known to be finite entry by entry, a real scale, a maximum folded from `⊥` and a sum accumulated
    from `0`. -/
theorem deferred_eq_normalised_of_finite {n d : Nat} (hn : 0 < n) (c lo z : EReal) (hc : ∃ r : ℝ, c = r) (hlo : lo = ⊥) (hz : z = 0)
    (q : Fin d → EReal) (k : Fin n → Fin d → EReal) (v : Fin n → EReal)
    (hq : ∀ e, ∃ r : ℝ, q e = r) (hk : ∀ j e, ∃ r : ℝ, k j e = r) (hv : ∀ j, ∃ r : ℝ, v j = r) :
    deferred c lo q k v = normalised c lo z q k v := by
  obtain ⟨c', rfl⟩ := hc
  choose q' hq' using hq
  choose k' hk' using hk
  choose v' hv' using hv
  subst hlo hz
  have eq : q = fun e => (q' e : EReal) := funext hq'
  have ek : k = fun j e => (k' j e : EReal) := funext fun j => funext fun e => hk' j e
  have ev : v = fun j => (v' j : EReal) := funext hv'
  rw [eq, ek, ev]
  exact deferred_eq_normalised hn c' q' k' v'

end Cert.LibSoftmax

end
-- ==== Proof.Softmax.lean ====
/-
  ATTENTION OVER WHOLE ARRAYS, as the softmax-weighted mean of every row (`LibSoftmax.lean`), in both arrangements.
-/
import proofs.«423221_j39676907887947_3_alg».proof.Proof.LibSoftmax
import Idealize.ShloMosaic.Lib.ValueIdx

noncomputable section

open scoped BigOperators

namespace Cert.Attn

open Idealize.ShloMosaic Idealize.ShloMosaic.ValueIdx Cert.LibSoftmax

/-- The arrays of the two programs: batch × heads × sequence × head dimension. -/
abbrev Arr : Type := (⟨4, ![8, 16, 1024, 64]⟩ : Shape).Idx → EReal

/-- Attention over whole arrays, in the `deferred` arrangement: entry `(b, h, r, x)` is the softmax-weighted mean of
    column `x` of `v[b, h]`, with the scores of query row `q[b, h, r]` against every key row `k[b, h, j]`. -/
def attention (c lo : EReal) (q k v : Arr) : Arr := fun i =>
  deferred c lo (fun e : Fin 64 => q (ix4 (i 0) (i 1) (i 2) e)) (fun (j : Fin 1024) (e : Fin 64) => k (ix4 (i 0) (i 1) j e))
    (fun j : Fin 1024 => v (ix4 (i 0) (i 1) j (i 3)))

/-- The same entries in the `normalised` arrangement. -/
def attentionNormalised (c lo z : EReal) (q k v : Arr) : Arr := fun i =>
  normalised c lo z (fun e : Fin 64 => q (ix4 (i 0) (i 1) (i 2) e)) (fun (j : Fin 1024) (e : Fin 64) => k (ix4 (i 0) (i 1) j e))
    (fun j : Fin 1024 => v (ix4 (i 0) (i 1) j (i 3)))

end Cert.Attn

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.ChunkValue.lean ====
/-
  ONE CHUNK OF 256 QUERY ROWS: what the body stores for it, entry by entry.

  For a chunk the body forms the 256 × 1024 scores `S = Q · Kᵀ` (the query rows already scaled), subtracts each row's
  maximum, exponentiates, sums each row, multiplies the exponentials into the values `V` and divides row `r` of the
  product by row `r`'s sum. Read at `(r, x)` this is the softmax-weighted mean of column `x` of `V` with the scores of
  row `r`: `(∑ j, w j · V j x) / ∑ j, w j`, `w j = exp (S r j - max_j S r j)`. Here each matrix operation is read at an
  entry — a contraction as a sum over the contracted coordinate, a reduction along the keys as a fold or a sum over them, a
  column spread over a row as the column's entry — and the pieces are put together.
-/
import proofs.«423221_j39676907887947_3_alg».proof.Proof.Gen.KernelIdeal.Skeleton
import proofs.«423221_j39676907887947_3_alg».proof.Proof.Softmax
import proofs.«423221_j39676907887947_3_alg».proof.Proof.LibBlockOps
import Idealize.ShloMosaic.Lib.Pipeline.Value
import Idealize.ShloMosaic.Lib.ValueIdx
import Idealize.ShloMosaic.PureOps.Ideal.Laws

noncomputable section

open scoped BigOperators

namespace Cert.Attn.Chunk

open Idealize.ShloMosaic Idealize.ShloMosaic.ValueIdx Cert.KernelIdeal Cert.KernelIdeal.Gen Cert.LibBlockOps Cert.Attn Cert.LibSoftmax

/-- The starting value of a row maximum, `-∞` as a bit pattern; -/
abbrev lo : EReal := Ideal.ofBits .f32 0xFF800000#32
/-- and the scale folded into the queries. -/
abbrev scale : EReal := Ideal.ofBits .f32 0x3E000000#32

/-! ## The two contractions' operand indices, axis by axis -/

theorem lhs_qk_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem lhs_qk_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem rhs_qk_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem rhs_qk_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

theorem lhs_pv_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs_pv_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem rhs_pv_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem rhs_pv_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-! ## The two contractions at an entry -/

/-- `Q · Kᵀ` into a zero accumulator at `(r, j)`: the inner product of query row `r` and key row `j`. -/
theorem qk_apply (qb : FVec Ideal S256x64 .bf16) (kb : FVec Ideal S1024x64 .bf16) (r : Fin 256) (j : Fin 1024) :
    matmul dot_S256x64_S1024x64_S256x1024_1_1_0_0_n_n none qb kb (constant (F := Ideal) S256x1024 .f32 0x00000000#32) (ix2 r j)
      = ∑ e : Fin 64, qb (ix2 r e) * kb (ix2 j e) := by
  show FloatOps.matmul _ none qb kb _ (ix2 r j) = _
  rw [Ideal.matmul_constant_zero_apply, ← Equiv.sum_comp (contrEquiv1 dot_S256x64_S1024x64_S256x1024_1_1_0_0_n_n 64 rfl rfl).symm]
  refine Finset.sum_congr rfl fun e _ => ?_
  have hk := contrEquiv1_symm_val dot_S256x64_S1024x64_S256x1024_1_1_0_0_n_n 64 rfl rfl e
  have el : dot_S256x64_S1024x64_S256x1024_1_1_0_0_n_n.lhsIdx (ix2 r j) ((contrEquiv1 dot_S256x64_S1024x64_S256x1024_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S256x64_S1024x64_S256x1024_1_1_0_0_n_n.rhsIdx (ix2 r j) ((contrEquiv1 dot_S256x64_S1024x64_S256x1024_1_1_0_0_n_n 64 rfl rfl).symm e) = ix2 j e := funext fun a => Fin.ext (by
    match a with
    | ⟨0, _⟩ => exact rhs_qk_0 _ _
    | ⟨1, _⟩ => exact (rhs_qk_1 _ _).trans hk)
  rw [el, er]

/-- `P · V` into a zero accumulator at `(r, x)`: row `r` of `P` against column `x` of `V`. -/
theorem pv_apply (p : FVec Ideal S256x1024 .bf16) (vb : FVec Ideal S1024x64 .bf16) (r : Fin 256) (x : Fin 64) :
    matmul dot_S256x1024_S1024x64_S256x64_1_0_0_1_n_n none p vb (constant (F := Ideal) S256x64 .f32 0x00000000#32) (ix2 r x)
      = ∑ j : Fin 1024, p (ix2 r j) * vb (ix2 j x) := by
  show FloatOps.matmul _ none p vb _ (ix2 r x) = _
  rw [Ideal.matmul_constant_zero_apply, ← Equiv.sum_comp (contrEquiv1 dot_S256x1024_S1024x64_S256x64_1_0_0_1_n_n 1024 rfl rfl).symm]
  refine Finset.sum_congr rfl fun j _ => ?_
  have hk := contrEquiv1_symm_val dot_S256x1024_S1024x64_S256x64_1_0_0_1_n_n 1024 rfl rfl j
  have el : dot_S256x1024_S1024x64_S256x64_1_0_0_1_n_n.lhsIdx (ix2 r x) ((contrEquiv1 dot_S256x1024_S1024x64_S256x64_1_0_0_1_n_n 1024 rfl rfl).symm j) = ix2 r j := funext fun a => Fin.ext (by
    match a with
    | ⟨0, _⟩ => exact lhs_pv_0 _ _
    | ⟨1, _⟩ => exact (lhs_pv_1 _ _).trans hk)
  have er : dot_S256x1024_S1024x64_S256x64_1_0_0_1_n_n.rhsIdx (ix2 r x) ((contrEquiv1 dot_S256x1024_S1024x64_S256x64_1_0_0_1_n_n 1024 rfl rfl).symm j) = ix2 j x := funext fun a => Fin.ext (by
    match a with
    | ⟨0, _⟩ => exact (rhs_pv_0 _ _).trans hk
    | ⟨1, _⟩ => exact rhs_pv_1 _ _)
  rw [el, er]

/-! ## Reductions along the keys, kept as a column -/

/-- The index over row `r` with key coordinate `j` inserted is `(r, j)`. -/
theorem lift_row (h : S256x1024.Reduces [1] S256) (r : Fin 256) (j : Fin 1024) : h.lift (ix1 r) j = ix2 r j :=
  funext fun a => Fin.ext (by match a with | ⟨0, _⟩ => rfl | ⟨1, _⟩ => rfl)

/-- A vector of 256 entries viewed as a column reads entry `r` at `(r, 0)`. -/
theorem column_apply (y : FVec Ideal S256 .f32) (h : S256.ShapeCasts S256x1) (r : Fin 256) :
    shapeCast S256x1 y h (ix2 r u1) = y (ix1 r) :=
  shapeCast_apply y h (ix2 r u1) (ix1 r) (by rw [Shape.rowMajor_val_one, Shape.rowMajor_val_two]; show r.val = r.val * 1 + 0; omega)

/-- Each row's maximum over the keys, from `-∞`. -/
def rowMaxCol (s : FVec Ideal S256x1024 .f32) : FVec Ideal S256x1 .f32 :=
  shapeCast S256x1 (multiReduction .maximumf [1] S256 s 0xFF800000#32 reduces_S256x1024_S256 (.inl rfl) rfl) shapeCasts_S256_S256x1

theorem rowMaxCol_apply (s : FVec Ideal S256x1024 .f32) (r : Fin 256) :
    rowMaxCol s (ix2 r u1) = rowMax lo (fun j : Fin 1024 => s (ix2 r j)) := by
  unfold rowMaxCol
  refine (column_apply _ _ r).trans ?_
  refine (Ideal.multiReduction_maximumf_single s 0xFF800000#32 reduces_S256x1024_S256 (.inl rfl) rfl (ix1 r)).trans ?_
  show (Finset.univ : Finset (Fin 1024)).fold max lo (s ∘ reduces_S256x1024_S256.lift (ix1 r)) = _
  unfold rowMax
  exact congrArg (fun f => (Finset.univ : Finset (Fin 1024)).fold max lo f) (funext fun j => congrArg s (lift_row _ r j))

/-- Each row's sum over the keys. -/
def rowSumCol (w : FVec Ideal S256x1024 .f32) : FVec Ideal S256x1 .f32 :=
  shapeCast S256x1 (multiReduction .add [1] S256 w 0x00000000#32 reduces_S256x1024_S256 (.inl rfl) rfl) shapeCasts_S256_S256x1

theorem rowSumCol_apply (w : FVec Ideal S256x1024 .f32) (r : Fin 256) :
    rowSumCol w (ix2 r u1) = ∑ j : Fin 1024, w (ix2 r j) := by
  unfold rowSumCol
  refine (column_apply _ _ r).trans ?_
  refine (Ideal.multiReduction_add_single w 0x00000000#32 reduces_S256x1024_S256 (.inl rfl) rfl (ix1 r)).trans ?_
  exact Finset.sum_congr rfl fun j _ => congrArg w (lift_row _ r j)

/-! ## The chunk's result -/

/-- The exponentials of the scores less their row's maximum. -/
def weightMat (s : FVec Ideal S256x1024 .f32) : FVec Ideal S256x1024 .f32 :=
  exp (subf s (broadcastTo S256x1024 (rowMaxCol s) broadcasts_S256x1_S256x1024))

theorem weightMat_apply (s : FVec Ideal S256x1024 .f32) (r : Fin 256) (j : Fin 1024) :
    weightMat s (ix2 r j) = weights (rowMax lo (fun j' : Fin 1024 => s (ix2 r j'))) (fun j' : Fin 1024 => s (ix2 r j')) j := by
  show Ideal.exp (s (ix2 r j) - broadcastTo S256x1024 (rowMaxCol s) broadcasts_S256x1_S256x1024 (ix2 r j)) = _
  rw [col_apply, rowMaxCol_apply]
  rfl

/-- What the body stores for a chunk, from the scaled query rows `qb`, the keys `kb` and the values `vb`. -/
def chunkOut (kb vb : FVec Ideal S1024x64 .bf16) (qb : FVec Ideal S256x64 .bf16) : FVec Ideal S1x1x256x64 .f32 :=
  shapeCast S1x1x256x64
    (divf (matmul dot_S256x1024_S1024x64_S256x64_1_0_0_1_n_n none
        (truncf .bf16 (weightMat (matmul dot_S256x64_S1024x64_S256x1024_1_1_0_0_n_n none qb kb (constant S256x1024 .f32 0x00000000#32))) bitsLt_bf16_f32) vb
        (constant S256x64 .f32 0x00000000#32))
      (broadcastTo S256x64 (rowSumCol (weightMat (matmul dot_S256x64_S1024x64_S256x1024_1_1_0_0_n_n none qb kb (constant S256x1024 .f32 0x00000000#32))))
        broadcasts_S256x1_S256x64))
    shapeCasts_S256x64_S1x1x256x64

/-- A 256 × 64 table stored as a 1 × 1 × 256 × 64 block reads `(r, x)` at `(0, 0, r, x)`. -/
theorem block_of_table_apply (y : FVec Ideal S256x64 .f32) (h : S256x64.ShapeCasts S1x1x256x64) (a0 a1 : Fin 1) (r : Fin 256) (x : Fin 64) :
    shapeCast S1x1x256x64 y h (ix4 a0 a1 r x) = y (ix2 r x) :=
  shapeCast_apply y h (ix4 a0 a1 r x) (ix2 r x) (by
    rw [Shape.rowMajor_val_two, Shape.rowMajor_val_four]
    show r.val * 64 + x.val = ((a0.val * 1 + a1.val) * 256 + r.val) * 64 + x.val
    have h0 := a0.isLt; have h1 := a1.isLt; omega)

/-- The chunk's result at `(r, x)`: the weighted sum of column `x` of the values divided by the weights' sum, the weights
    those of row `r`'s scores against every key. -/
theorem chunkOut_apply (kb vb : FVec Ideal S1024x64 .bf16) (qb : FVec Ideal S256x64 .bf16) (a0 a1 : Fin 1) (r : Fin 256) (x : Fin 64) :
    chunkOut kb vb qb (ix4 a0 a1 r x)
      = Ideal.div
          (∑ j : Fin 1024, weights (rowMax lo (fun j' : Fin 1024 => ∑ e : Fin 64, qb (ix2 r e) * kb (ix2 j' e)))
            (fun j' : Fin 1024 => ∑ e : Fin 64, qb (ix2 r e) * kb (ix2 j' e)) j * vb (ix2 j x))
          (∑ j : Fin 1024, weights (rowMax lo (fun j' : Fin 1024 => ∑ e : Fin 64, qb (ix2 r e) * kb (ix2 j' e)))
            (fun j' : Fin 1024 => ∑ e : Fin 64, qb (ix2 r e) * kb (ix2 j' e)) j) := by
  unfold chunkOut
  refine (block_of_table_apply _ _ a0 a1 r x).trans ?_
  rw [divf_apply, pv_apply, col_apply, rowSumCol_apply]
  have hs : (fun j' : Fin 1024 => matmul dot_S256x64_S1024x64_S256x1024_1_1_0_0_n_n none qb kb (constant (F := Ideal) S256x1024 .f32 0x00000000#32) (ix2 r j'))
      = fun j' : Fin 1024 => ∑ e : Fin 64, qb (ix2 r e) * kb (ix2 j' e) := funext fun j' => qk_apply qb kb r j'
  have hw : ∀ j : Fin 1024, weightMat (matmul dot_S256x64_S1024x64_S256x1024_1_1_0_0_n_n none qb kb (constant (F := Ideal) S256x1024 .f32 0x00000000#32)) (ix2 r j)
      = weights (rowMax lo (fun j' : Fin 1024 => ∑ e : Fin 64, qb (ix2 r e) * kb (ix2 j' e)))
          (fun j' : Fin 1024 => ∑ e : Fin 64, qb (ix2 r e) * kb (ix2 j' e)) j := fun j => by
    rw [weightMat_apply, hs]
  refine congrArg₂ Ideal.div (Finset.sum_congr rfl fun j _ => ?_) (Finset.sum_congr rfl fun j _ => hw j)
  rw [truncf_apply, hw j]

end Cert.Attn.Chunk

end
-- ==== Proof.BlockValue.lean ====
/-
  FROM THE CHUNKS TO THE WHOLE ARRAY.

  At grid point `(b, h)` the body reads the three blocks `q[b, h]`, `k[b, h]`, `v[b, h]` (each 1 × 1 × 1024 × 64) and fills
  the output block by four stores of 256 rows each. Every store is the same function of the blocks, at its own rows: row
  `o + r` of the block is the softmax-weighted mean computed from query row `o + r`. So the four pieces together are ONE
  function of the block index (`blockAttn`); a block of the output is that function of the inputs' blocks at the same
  `(b, h)`, which is the whole-array function `attention` read through the block; and the 128 blocks tile the array.
-/
import proofs.«423221_j39676907887947_3_alg».proof.Proof.Gen.KernelIdeal.Frame
import proofs.«423221_j39676907887947_3_alg».proof.Proof.Gen.KernelIdeal.Value
import proofs.«423221_j39676907887947_3_alg».proof.Proof.ChunkValue
import Idealize.ShloMosaic.Lib.Pipeline.Value

set_option maxRecDepth 16384

noncomputable section

open scoped BigOperators

namespace Cert.Attn.Block

open Idealize.ShloMosaic Idealize.ShloMosaic.ValueIdx Idealize.ShloMosaic.TcCoe Idealize.SL.Sem
open Idealize.ShloMosaic.Pipeline (Dat)
open Cert.KernelIdeal Cert.KernelIdeal.Gen Cert.LibBlockOps Cert.LibSoftmax Cert.Attn Cert.Attn.Chunk

/-! ## The body's loaded operands at an entry -/

/-- A 1 × 1 × 256 × 64 block viewed as a table reads `(0, 0, r, e)` at `(r, e)`. -/
theorem table_of_block256 (y : Vec Ideal S1x1x256x64 .f32) (h : S1x1x256x64.ShapeCasts S256x64) (r : Fin 256) (e : Fin 64) :
    shapeCast S256x64 y h (ix2 r e) = y (ix4 u1 u1 r e) :=
  shapeCast_apply y h (ix2 r e) (ix4 u1 u1 r e) (by
    rw [Shape.rowMajor_val_two, Shape.rowMajor_val_four]
    show ((0 * 1 + 0) * 256 + r.val) * 64 + e.val = r.val * 64 + e.val
    omega)

/-- The same for a 1 × 1 × 1024 × 64 block. -/
theorem table_of_block1024 (y : Vec Ideal S1x1x1024x64 .f32) (h : S1x1x1024x64.ShapeCasts S1024x64) (j : Fin 1024) (e : Fin 64) :
    shapeCast S1024x64 y h (ix2 j e) = y (ix4 u1 u1 j e) :=
  shapeCast_apply y h (ix2 j e) (ix4 u1 u1 j e) (by
    rw [Shape.rowMajor_val_two, Shape.rowMajor_val_four]
    show ((0 * 1 + 0) * 1024 + j.val) * 64 + e.val = j.val * 64 + e.val
    omega)

/-- The scaled query rows of a chunk. -/
theorem scaledQ_apply (y : Vec Ideal S1x1x256x64 .f32) (r : Fin 256) (e : Fin 64) :
    k0_pay5 (F := Ideal) y (ix2 r e) = y (ix4 u1 u1 r e) * scale := by
  show shapeCast S256x64 y shapeCasts_S1x1x256x64_S256x64 (ix2 r e) * scale = _
  rw [table_of_block256]

/-- The key rows. -/
theorem keys_apply (y : Vec Ideal S1x1x1024x64 .f32) (j : Fin 1024) (e : Fin 64) :
    k0_pay2 (F := Ideal) y (ix2 j e) = y (ix4 u1 u1 j e) := by
  show shapeCast S1024x64 y shapeCasts_S1x1x1024x64_S1024x64 (ix2 j e) = _
  rw [table_of_block1024]

/-- The value rows. -/
theorem values_apply (y : Vec Ideal S1x1x1024x64 .f32) (j : Fin 1024) (e : Fin 64) :
    k0_pay3 (F := Ideal) y (ix2 j e) = y (ix4 u1 u1 j e) := by
  show shapeCast S1024x64 y shapeCasts_S1x1x1024x64_S1024x64 (ix2 j e) = _
  rw [table_of_block1024]

/-! ## The four stores are one chunk function -/

theorem store0_eq (v0 v3 : Vec Ideal S1x1x1024x64 .f32) (v6 : Vec Ideal S1x1x256x64 .f32) :
    k0_pay4 (F := Ideal) v0 v3 v6 = chunkOut (k0_pay2 v0) (k0_pay3 v3) (k0_pay5 v6) := rfl
theorem store1_eq (kb vb : FVec Ideal S1024x64 .bf16) (qb : FVec Ideal S256x64 .bf16) :
    k0_pay6 (F := Ideal) kb vb qb = chunkOut kb vb qb := rfl
theorem store2_eq (kb vb : FVec Ideal S1024x64 .bf16) (v46 : Vec Ideal S1x1x256x64 .f32) :
    k0_pay7 (F := Ideal) kb vb v46 = chunkOut kb vb (k0_pay5 v46) := rfl
theorem store3_eq (kb vb : FVec Ideal S1024x64 .bf16) (v66 : Vec Ideal S1x1x256x64 .f32) :
    k0_pay1 (F := Ideal) kb vb v66 = chunkOut kb vb (k0_pay5 v66) := rfl

/-! ## One function of the block index -/

/-- The row and the column of a block index, as numbers below the block's extents. -/
abbrev rowOf (y : S1x1x1024x64.Idx) : Fin 1024 := ⟨(y 2).val, (y 2).isLt⟩
abbrev colOf (y : S1x1x1024x64.Idx) : Fin 64 := ⟨(y 3).val, (y 3).isLt⟩

/-- The output block as a function of the three input blocks: at row `r`, column `x` the softmax-weighted mean of
    column `x` of the value block under the scores of query row `r`. -/
def blockAttn (x0 x1 x2 : Vec Ideal S1x1x1024x64 .f32) : Vec Ideal S1x1x1024x64 .f32 := fun y =>
  deferred scale lo (fun e : Fin 64 => x0 (ix4 u1 u1 (rowOf y) e)) (fun (j : Fin 1024) (e : Fin 64) => x1 (ix4 u1 u1 j e))
    (fun j : Fin 1024 => x2 (ix4 u1 u1 j (colOf y)))

theorem hz : (![0, 0, 0, 0] : Fin 4 → Nat) = fun _ => 0 := funext fun a => by fin_cases a <;> rfl

/-- A store of 256 rows from row `o` places its local index `(0, 0, r, x)` at `(0, 0, o + r, x)`. -/
theorem rows_idx (o : Nat) (inb : ∀ a, (![0, 0, o, 0] : Fin 4 → Nat) a + S1x1x256x64.size a ≤ S1x1x1024x64.size a)
    (a0 a1 : Fin 1) (r : Fin 256) (x : Fin 64) (ho : o + r.val < 1024) :
    (Rect.unit (s := S1x1x1024x64) ![0, 0, o, 0] S1x1x256x64.size inb).idx (ix4 a0 a1 r x) = ix4 u1 u1 ⟨o + r.val, ho⟩ x := by
  funext a; apply Fin.ext
  match a with
  | ⟨0, _⟩ => show 0 + 1 * a0.val = 0; have := a0.isLt; omega
  | ⟨1, _⟩ => show 0 + 1 * a1.val = 0; have := a1.isLt; omega
  | ⟨2, _⟩ => show o + 1 * r.val = o + r.val; omega
  | ⟨3, _⟩ => show 0 + 1 * x.val = x.val; omega

/-- One piece: the chunk function of the rows from `o` is `blockAttn` at the piece's place in the block. -/
theorem piece_apply (o : Nat) (inb : ∀ a, (![0, 0, o, 0] : Fin 4 → Nat) a + S1x1x256x64.size a ≤ S1x1x1024x64.size a) (ho : o + 256 ≤ 1024)
    (x0 x1 x2 : Vec Ideal S1x1x1024x64 .f32)
    (xl : (Rect.unit (s := S1x1x1024x64) ![0, 0, o, 0] S1x1x256x64.size inb).shape.Idx) :
    chunkOut (k0_pay2 (View.ld x1 r0_0)) (k0_pay3 (View.ld x2 r0_0))
        (k0_pay5 (View.ld x0 (Rect.unit (s := S1x1x1024x64) ![0, 0, o, 0] S1x1x256x64.size inb))) xl
      = blockAttn x0 x1 x2 ((Rect.unit (s := S1x1x1024x64) ![0, 0, o, 0] S1x1x256x64.size inb).emb xl) := by
  obtain ⟨a0, a1, r, x, rfl⟩ : ∃ (a0 a1 : Fin 1) (r : Fin 256) (x : Fin 64), xl = ix4 a0 a1 r x :=
    ⟨xl 0, xl 1, xl 2, xl 3, eq_ix4 xl⟩
  have hr : o + r.val < 1024 := by have := r.isLt; omega
  refine (chunkOut_apply _ _ _ a0 a1 r x).trans ?_
  have hemb : (Rect.unit (s := S1x1x1024x64) ![0, 0, o, 0] S1x1x256x64.size inb).emb (ix4 a0 a1 r x) = ix4 u1 u1 ⟨o + r.val, hr⟩ x :=
    rows_idx o inb a0 a1 r x hr
  rw [hemb]
  unfold blockAttn deferred
  have hq : ∀ e : Fin 64, k0_pay5 (F := Ideal) (View.ld x0 (Rect.unit (s := S1x1x1024x64) ![0, 0, o, 0] S1x1x256x64.size inb)) (ix2 r e)
      = x0 (ix4 u1 u1 ⟨o + r.val, hr⟩ e) * scale := fun e => by
    rw [scaledQ_apply]
    show x0 ((Rect.unit (s := S1x1x1024x64) ![0, 0, o, 0] S1x1x256x64.size inb).idx (ix4 u1 u1 r e)) * scale = _
    rw [rows_idx o inb u1 u1 r e hr]
  have hk : ∀ (j : Fin 1024) (e : Fin 64), k0_pay2 (F := Ideal) (View.ld x1 r0_0) (ix2 j e) = x1 (ix4 u1 u1 j e) := fun j e => by
    rw [keys_apply, View.ld_unit_zero (S := S1x1x1024x64) hz]
  have hv : ∀ (j : Fin 1024) (e : Fin 64), k0_pay3 (F := Ideal) (View.ld x2 r0_0) (ix2 j e) = x2 (ix4 u1 u1 j e) := fun j e => by
    rw [values_apply, View.ld_unit_zero (S := S1x1x1024x64) hz]
  have hs : (fun j' : Fin 1024 => ∑ e : Fin 64,
        k0_pay5 (F := Ideal) (View.ld x0 (Rect.unit (s := S1x1x1024x64) ![0, 0, o, 0] S1x1x256x64.size inb)) (ix2 r e)
          * k0_pay2 (F := Ideal) (View.ld x1 r0_0) (ix2 j' e))
      = scoresPre scale (fun e : Fin 64 => x0 (ix4 u1 u1 ⟨o + r.val, hr⟩ e)) (fun (j : Fin 1024) (e : Fin 64) => x1 (ix4 u1 u1 j e)) := by
    funext j'
    unfold scoresPre
    exact Finset.sum_congr rfl fun e _ => by rw [hq e, hk j' e]
  rw [hs]
  refine congrArg₂ Ideal.div (Finset.sum_congr rfl fun j _ => ?_) rfl
  rw [hv j x]

/-- The body's four stores leave `blockAttn` of the input blocks. -/
theorem out_eq (x0 x1 x2 : Vec Ideal S1x1x1024x64 .f32) : out0_3 x0 x1 x2 = blockAttn x0 x1 x2 := by
  funext y
  unfold out0_3
  refine View.canon_apply_of_pieces (blockAttn x0 x1 x2) _ ?_ y (cover0_3 _ _ _ _ y)
  intro p hp xl
  simp only [List.mem_cons, List.not_mem_nil, or_false] at hp
  rcases hp with rfl | rfl | rfl | rfl
  · exact (congrFun (store3_eq _ _ _) xl).trans (piece_apply 768 _ (by decide) x0 x1 x2 xl)
  · exact (congrFun (store2_eq _ _ _) xl).trans (piece_apply 512 _ (by decide) x0 x1 x2 xl)
  · exact (congrFun (store1_eq _ _ _) xl).trans (piece_apply 256 _ (by decide) x0 x1 x2 xl)
  · exact (congrFun (store0_eq _ _ _) xl).trans (piece_apply 0 _ (by decide) x0 x1 x2 xl)

/-! ## A block of the output is the whole-array function read through the block -/

section Array

variable (m : (ℓ : Loc nD τ sig) → Buf (Elt Ideal) ℓ) (ρ : Dev nD → PrngReg)

/-- The printed index maps, decided over the grid: every window's block at a point is block `(b, h, 0, 0)` of its array,
    the same `(b, h)` for all four. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0 :=
  (by decide +kernel : ∀ t : Fin grid0.N, _)

/-- Every `(b, h)` is some point's block. -/
theorem idx_onto : ∀ (q0 : Fin 8) (q1 : Fin 16), ∃ t : Fin cfg0.N, win0_3.index t = ![q0.val, q1.val, 0, 0] :=
  (by decide +kernel : ∀ (q0 : Fin 8) (q1 : Fin 16), ∃ t : Fin grid0.N, win0_3.index t = ![q0.val, q1.val, 0, 0])

/-- WHAT POINT `t` WRITES BACK is block `t` of `attention` of the argument arrays. -/
theorem flushed_eq (c : Dev nD) (t : Fin cfg0.N) :
    (dats m 0 c).flushed 3 t = ((cfg0.win 3).blk t).view.read (Elt Ideal)
      (attention scale lo (V m c main_arg0) (V m c main_arg1) (V m c main_arg2)) := by
  rw [Cert.KernelIdeal.Value.flushed3, out_eq]
  obtain ⟨e00, e01, e02, e03, e10, e11, e12, e13, e20, e21, e22, e23, e32, e33⟩ := idx_facts t
  funext y
  show blockAttn (iblk m c 0 t) (iblk m c 1 t) (iblk m c 2 t) y
    = attention scale lo (V m c main_arg0) (V m c main_arg1) (V m c main_arg2) (((cfg0.win 3).blk t).view.emb y)
  unfold blockAttn attention
  have hy0 : (y 0).val = 0 := by have : (y 0).val < 1 := (y 0).isLt; omega
  have hy1 : (y 1).val = 0 := by have : (y 1).val < 1 := (y 1).isLt; omega
  have hy2 : (y 2).val < 1024 := (y 2).isLt
  have hy3 : (y 3).val < 64 := (y 3).isLt
  have hq : (fun e : Fin 64 => iblk m c 0 t (ix4 u1 u1 (rowOf y) e))
      = fun e : Fin 64 => V m c main_arg0 (ix4 ((((cfg0.win 3).blk t).view.emb y) 0) ((((cfg0.win 3).blk t).view.emb y) 1) ((((cfg0.win 3).blk t).view.emb y) 2) e) := by
    funext e
    show V m c main_arg0 (((cfg0.win 0).blk t).view.emb (ix4 u1 u1 (rowOf y) e)) = _
    refine congrArg (V m c main_arg0) (funext fun a => Fin.ext ?_)
    match a with
    | ⟨0, _⟩ => show win0_0.index t (0 : Fin 4) * 1 + 1 * 0 = win0_3.index t (0 : Fin 4) * 1 + 1 * (y 0).val; omega
    | ⟨1, _⟩ => show win0_0.index t (1 : Fin 4) * 1 + 1 * 0 = win0_3.index t (1 : Fin 4) * 1 + 1 * (y 1).val; omega
    | ⟨2, _⟩ => show win0_0.index t (2 : Fin 4) * 1024 + 1 * (y 2).val = win0_3.index t (2 : Fin 4) * 1024 + 1 * (y 2).val; omega
    | ⟨3, _⟩ => show win0_0.index t (3 : Fin 4) * 64 + 1 * e.val = e.val; omega
  have hk : (fun (j : Fin 1024) (e : Fin 64) => iblk m c 1 t (ix4 u1 u1 j e))
      = fun (j : Fin 1024) (e : Fin 64) => V m c main_arg1 (ix4 ((((cfg0.win 3).blk t).view.emb y) 0) ((((cfg0.win 3).blk t).view.emb y) 1) j e) := by
    funext j e
    show V m c main_arg1 (((cfg0.win 1).blk t).view.emb (ix4 u1 u1 j e)) = _
    refine congrArg (V m c main_arg1) (funext fun a => Fin.ext ?_)
    match a with
    | ⟨0, _⟩ => show win0_1.index t (0 : Fin 4) * 1 + 1 * 0 = win0_3.index t (0 : Fin 4) * 1 + 1 * (y 0).val; omega
    | ⟨1, _⟩ => show win0_1.index t (1 : Fin 4) * 1 + 1 * 0 = win0_3.index t (1 : Fin 4) * 1 + 1 * (y 1).val; omega
    | ⟨2, _⟩ => show win0_1.index t (2 : Fin 4) * 1024 + 1 * j.val = j.val; omega
    | ⟨3, _⟩ => show win0_1.index t (3 : Fin 4) * 64 + 1 * e.val = e.val; omega
  have hv : (fun j : Fin 1024 => iblk m c 2 t (ix4 u1 u1 j (colOf y)))
      = fun j : Fin 1024 => V m c main_arg2 (ix4 ((((cfg0.win 3).blk t).view.emb y) 0) ((((cfg0.win 3).blk t).view.emb y) 1) j ((((cfg0.win 3).blk t).view.emb y) 3)) := by
    funext j
    show V m c main_arg2 (((cfg0.win 2).blk t).view.emb (ix4 u1 u1 j (colOf y))) = _
    refine congrArg (V m c main_arg2) (funext fun a => Fin.ext ?_)
    match a with
    | ⟨0, _⟩ => show win0_2.index t (0 : Fin 4) * 1 + 1 * 0 = win0_3.index t (0 : Fin 4) * 1 + 1 * (y 0).val; omega
    | ⟨1, _⟩ => show win0_2.index t (1 : Fin 4) * 1 + 1 * 0 = win0_3.index t (1 : Fin 4) * 1 + 1 * (y 1).val; omega
    | ⟨2, _⟩ => show win0_2.index t (2 : Fin 4) * 1024 + 1 * j.val = j.val; omega
    | ⟨3, _⟩ => show win0_2.index t (3 : Fin 4) * 64 + 1 * (y 3).val = win0_3.index t (3 : Fin 4) * 64 + 1 * (y 3).val; omega
  rw [hq, hk, hv]

/-- An index of the array is in point `t`'s block iff each coordinate is in the block's range on its axis. -/
theorem mem_blk (t : Fin cfg0.N) (i : S8x16x1024x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- The blocks tile the array: entry `(b, h, r, x)` lies in the block of the point with index `(b, h, 0, 0)`. -/
theorem cover (i : S8x16x1024x64.Idx) :
    ∃ t : Fin cfg0.N, (cfg0.win 3).flush t = true ∧ i ∈ ((cfg0.win 3).blk t).view.set := by
  have hi0 : (i 0).val < 8 := (i 0).isLt
  have hi1 : (i 1).val < 16 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- THE ARRAY after the run is `attention` of the argument arrays. -/
theorem final (c : Dev nD) :
    (dats m 0 c).arrAt 3 cfg0.N = attention scale lo (m ((c : Thread nD τ).loc main_arg0)) (m ((c : Thread nD τ).loc main_arg1))
      (m ((c : Thread nD τ).loc main_arg2)) :=
  (dats m 0 c).arrAt_eq_of_cover 3 (attention scale lo (V m c main_arg0) (V m c main_arg1) (V m c main_arg2))
    (fun t _ => flushed_eq m c t) cover

/-- The kernel's run: the result array ends at `attention` of the arguments, which are unchanged. -/
theorem run : θ_run defs (onTc (τ := τ) (main (F := Ideal))) ⟨m, fun _ => 0, ρ⟩ fun r => ∀ c : Dev nD,
      r.2.mem ((c : Thread nD τ).loc main_v0) = attention scale lo (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Array

end Cert.Attn.Block

end
-- ==== Proof.RefValue.lean ====
/-
  THE REFERENCE'S RESULT, ENTRY BY ENTRY, IS THE NORMALISED ARRANGEMENT.
-/
import proofs.«423221_j39676907887947_3_alg».proof.Proof.Softmax
import proofs.«423221_j39676907887947_3_alg».proof.Proof.Gen.ReferenceIdeal.Read
import Idealize.ShloMosaic.PureOps.Ideal.Laws
import Idealize.ShloMosaic.PureOps.Reduce

noncomputable section

open scoped BigOperators

namespace Cert.Attn

open Idealize.ShloMosaic Idealize.ShloMosaic.ValueIdx Cert.LibSoftmax Cert.ReferenceIdeal Cert.ReferenceIdeal.Read

namespace RefValue

/-! ## The index functions of the stages, at an index given by its coordinates -/

theorem lidx_v0_ix4 (b : Fin 8) (h : Fin 16) (r j : Fin 1024) (e : Fin 64) :
    lidx_main_v0 (ix4 b h r j) e = ix4 b h r e :=
  funext fun a => Fin.ext (by match a with | ⟨0, _⟩ => rfl | ⟨1, _⟩ => rfl | ⟨2, _⟩ => rfl | ⟨3, _⟩ => rfl)

theorem ridx_v0_ix4 (b : Fin 8) (h : Fin 16) (r j : Fin 1024) (e : Fin 64) :
    ridx_main_v0 (ix4 b h r j) e = ix4 b h j e :=
  funext fun a => Fin.ext (by match a with | ⟨0, _⟩ => rfl | ⟨1, _⟩ => rfl | ⟨2, _⟩ => rfl | ⟨3, _⟩ => rfl)

theorem idx_v7_ix4 (b : Fin 8) (h : Fin 16) (r j : Fin 1024) :
    idx_main_v7 (ix4 b h r j) = ix4 b h r (0 : Fin 1) :=
  funext fun a => Fin.ext (by match a with | ⟨0, _⟩ => rfl | ⟨1, _⟩ => rfl | ⟨2, _⟩ => rfl | ⟨3, _⟩ => rfl)

theorem idx_v6_ix4 (b : Fin 8) (h : Fin 16) (r : Fin 1024) (o : Fin 1) :
    idx_main_v6 (ix4 b h r o) = ix3 b h r :=
  funext fun a => Fin.ext (by match a with | ⟨0, _⟩ => rfl | ⟨1, _⟩ => rfl | ⟨2, _⟩ => rfl)

theorem idx_v12_ix4 (b : Fin 8) (h : Fin 16) (r j : Fin 1024) :
    idx_main_v12 (ix4 b h r j) = ix4 b h r (0 : Fin 1) :=
  funext fun a => Fin.ext (by match a with | ⟨0, _⟩ => rfl | ⟨1, _⟩ => rfl | ⟨2, _⟩ => rfl | ⟨3, _⟩ => rfl)

theorem idx_v11_ix4 (b : Fin 8) (h : Fin 16) (r : Fin 1024) (o : Fin 1) :
    idx_main_v11 (ix4 b h r o) = ix3 b h r :=
  funext fun a => Fin.ext (by match a with | ⟨0, _⟩ => rfl | ⟨1, _⟩ => rfl | ⟨2, _⟩ => rfl)

theorem idx_v10_ix3 (b : Fin 8) (h : Fin 16) (r k : Fin 1024) :
    idx_main_v10 (ix3 b h r) k = ix4 b h r k :=
  funext fun a => Fin.ext (by match a with | ⟨0, _⟩ => rfl | ⟨1, _⟩ => rfl | ⟨2, _⟩ => rfl | ⟨3, _⟩ => rfl)

theorem lidx_v14_ix4 (b : Fin 8) (h : Fin 16) (r : Fin 1024) (x : Fin 64) (k : Fin 1024) :
    lidx_main_v14 (ix4 b h r x) k = ix4 b h r k :=
  funext fun a => Fin.ext (by match a with | ⟨0, _⟩ => rfl | ⟨1, _⟩ => rfl | ⟨2, _⟩ => rfl | ⟨3, _⟩ => rfl)

theorem ridx_v14_ix4 (b : Fin 8) (h : Fin 16) (r : Fin 1024) (x : Fin 64) (k : Fin 1024) :
    ridx_main_v14 (ix4 b h r x) k = ix4 b h k x :=
  funext fun a => Fin.ext (by match a with | ⟨0, _⟩ => rfl | ⟨1, _⟩ => rfl | ⟨2, _⟩ => rfl | ⟨3, _⟩ => rfl)

/-- The scale, as the value of the bit word the program prints. -/
abbrev cScale : EReal := Ideal.ofBits .f32 0x3E000000#32
/-- The starting value of the maximum, as the value of its bit word. -/
abbrev cLo : EReal := Ideal.ofBits .f32 0xFF800000#32
/-- The starting value of the sum, as the value of its bit word. -/
abbrev cZero : EReal := Ideal.ofBits .f32 0x00000000#32

/-- The scores of query row `(b, h, r)` against every key row of `(b, h)`. -/
abbrev rowScores (x0 x1 : Arr) (b : Fin 8) (h : Fin 16) (r : Fin 1024) : Fin 1024 → EReal :=
  scoresPost cScale (fun e : Fin 64 => x0 (ix4 b h r e)) (fun (j : Fin 1024) (e : Fin 64) => x1 (ix4 b h j e))

/-- Stage 2 at an entry is the scaled inner product. -/
theorem v2_ix4 (x0 x1 : (⟨S8x16x1024x64, .f32⟩ : BufTy).Contents (Elt Ideal)) (b : Fin 8) (h : Fin 16) (r j : Fin 1024) :
    val_main_v2 (F := Ideal) x0 x1 (ix4 b h r j) = rowScores x0 x1 b h r j := by
  rw [val_main_v2_apply, val_main_v0_apply, val_main_v1_apply, val_main_cst_apply]
  simp only [Ideal.mulf_def, Ideal.ofBits_def, lidx_v0_ix4, ridx_v0_ix4]
  rfl

/-- The index of the reduced axis inserted into `(b, h, r)`. -/
theorem lift_ix3 (hR : S8x16x1024x1024.Reduces [3] S8x16x1024) (b : Fin 8) (h : Fin 16) (r : Fin 1024) (k : Fin 1024) :
    hR.lift (ix3 b h r) k = ix4 b h r k :=
  funext fun a => Fin.ext (by match a with | ⟨0, _⟩ => rfl | ⟨1, _⟩ => rfl | ⟨2, _⟩ => rfl | ⟨3, _⟩ => rfl)

/-- Stage 3 at an entry is the row's maximum folded from the starting value. -/
theorem v3_ix3 [Cert.ReferenceIdeal.Facts] (x0 x1 : (⟨S8x16x1024x64, .f32⟩ : BufTy).Contents (Elt Ideal)) (b : Fin 8) (h : Fin 16) (r : Fin 1024) :
    val_main_v3 (F := Ideal) x0 x1 (ix3 b h r) = rowMax cLo (rowScores x0 x1 b h r) := by
  unfold val_main_v3
  rw [Host.reduce_eq_fold_single FloatOps.maximumf _ _ Gen.reducesTo_S8x16x1024x1024_S8x16x1024_d3 (by decide)]
  rw [val_main_cst_0_apply]
  unfold rowMax
  have hf : (val_main_v2 (F := Ideal) x0 x1 ∘ Shape.Reduces.lift (s := S8x16x1024x1024) (t := S8x16x1024) (a := 3) (by decide) (ix3 b h r)) = rowScores x0 x1 b h r := by
    funext k
    exact (congrArg (val_main_v2 (F := Ideal) x0 x1) (lift_ix3 _ b h r k)).trans (v2_ix4 x0 x1 b h r k)
  rw [hf]
  rfl

/-- The maximum the weights are taken against: the row's maximum, taken against the starting value once more. -/
abbrev rowTop (x0 x1 : Arr) (b : Fin 8) (h : Fin 16) (r : Fin 1024) : EReal :=
  max cLo (rowMax cLo (rowScores x0 x1 b h r))

/-- Stage 5 at an entry. -/
theorem v5_ix3 [Cert.ReferenceIdeal.Facts] (x0 x1 : (⟨S8x16x1024x64, .f32⟩ : BufTy).Contents (Elt Ideal)) (b : Fin 8) (h : Fin 16) (r : Fin 1024) :
    val_main_v5 (F := Ideal) x0 x1 (ix3 b h r) = rowTop x0 x1 b h r := by
  rw [val_main_v5_apply, val_main_v4_apply, val_main_cst_1_apply, v3_ix3]
  rfl

/-- Stage 9 at an entry is the weight. -/
theorem v9_ix4 [Cert.ReferenceIdeal.Facts] (x0 x1 : (⟨S8x16x1024x64, .f32⟩ : BufTy).Contents (Elt Ideal)) (b : Fin 8) (h : Fin 16) (r j : Fin 1024) :
    val_main_v9 (F := Ideal) x0 x1 (ix4 b h r j) = weights (rowTop x0 x1 b h r) (rowScores x0 x1 b h r) j := by
  rw [val_main_v9_apply, val_main_v8_apply, v2_ix4, val_main_v7_apply, idx_v7_ix4, val_main_v6_apply, idx_v6_ix4, v5_ix3]
  rfl

/-- Stage 13 at an entry is the weight divided by the weights' sum accumulated from zero. -/
theorem v13_ix4 [Cert.ReferenceIdeal.Facts] (x0 x1 : (⟨S8x16x1024x64, .f32⟩ : BufTy).Contents (Elt Ideal)) (b : Fin 8) (h : Fin 16) (r j : Fin 1024) :
    val_main_v13 (F := Ideal) x0 x1 (ix4 b h r j)
      = Ideal.div (weights (rowTop x0 x1 b h r) (rowScores x0 x1 b h r) j)
          (cZero + ∑ j' : Fin 1024, weights (rowTop x0 x1 b h r) (rowScores x0 x1 b h r) j') := by
  rw [val_main_v13_apply, v9_ix4, val_main_v12_apply, idx_v12_ix4, val_main_v11_apply, idx_v11_ix4, val_main_v10_apply,
    val_main_cst_2_apply]
  simp only [idx_v10_ix3, v9_ix4]
  rfl

end RefValue

open RefValue

/-- The reference's last stage at an entry: scores scaled after the inner product, the maximum taken against `-∞` once
    more, each weight divided by the weights' sum (accumulated from zero), then the weighted sum with the values. -/
theorem reference_eq [Cert.ReferenceIdeal.Facts] (x0 x1 x2 : (⟨S8x16x1024x64, .f32⟩ : BufTy).Contents (Elt Ideal)) :
    val_main_v14 (F := Ideal) x0 x1 x2
      = attentionNormalised (Ideal.ofBits .f32 0x3E000000#32) (Ideal.ofBits .f32 0xFF800000#32) (Ideal.ofBits .f32 0x00000000#32) x0 x1 x2 := by
  funext i
  obtain ⟨b, h, r, x, rfl⟩ : ∃ b h r x, i = ix4 b h r x := ⟨_, _, _, _, eq_ix4 i⟩
  rw [val_main_v14_apply]
  show _ = ∑ j : Fin 1024, Ideal.div (weights (rowTop x0 x1 b h r) (rowScores x0 x1 b h r) j)
      (cZero + ∑ j' : Fin 1024, weights (rowTop x0 x1 b h r) (rowScores x0 x1 b h r) j') * x2 (ix4 b h j x)
  refine Finset.sum_congr rfl fun j _ => ?_
  rw [lidx_v14_ix4, ridx_v14_ix4, v13_ix4]

end Cert.Attn

end
-- ==== Proof.Law.lean ====
/-
  THE TWO ARRANGEMENTS OF ATTENTION AGREE ON ARRAYS WHOSE ENTRIES ARE ALL FINITE: the row law of `LibSoftmax.lean` at every
  entry, with 1024 keys.
-/
import proofs.«423221_j39676907887947_3_alg».proof.Proof.Softmax

noncomputable section

open scoped BigOperators

namespace Cert.Attn

open Idealize.ShloMosaic Idealize.ShloMosaic.ValueIdx Cert.LibSoftmax

theorem attention_eq_normalised (c lo z : EReal) (hc : ∃ r : ℝ, c = r) (hlo : lo = ⊥) (hz : z = 0) (q k v : Arr)
    (hq : ∀ i, ∃ r : ℝ, q i = r) (hk : ∀ i, ∃ r : ℝ, k i = r) (hv : ∀ i, ∃ r : ℝ, v i = r) :
    attention c lo q k v = attentionNormalised c lo z q k v := by
  funext i
  unfold attention attentionNormalised
  exact deferred_eq_normalised_of_finite (n := 1024) (d := 64) (by norm_num) c lo z hc hlo hz _ _ _
    (fun e => hq _) (fun j e => hk _) (fun j => hv _)

end Cert.Attn

end
-- ==== Proof.Finite.lean ====
/-
  THE PRECONDITION SAYS EVERY ENTRY IS A REAL NUMBER.
-/
import proofs.«423221_j39676907887947_3_alg».proof.Pre_finite_inputs
import proofs.«423221_j39676907887947_3_alg».proof.Proof.Gen.Pre_finite_inputs
import Idealize.ShloMosaic.PureOps.Ideal
import Idealize.ShloMosaic.Lib.ValueIdx
import Idealize.ShloMosaic.Lib.ReduceAll

noncomputable section

namespace Cert.Attn

open Idealize.ShloMosaic Idealize.ShloMosaic.ValueIdx

/-- The word `0x7F800000` denotes `+∞`. -/
theorem ofBits_posInf : Ideal.ofBits .f32 0x7F800000#32 = (⊤ : EReal) := by
  simp [Ideal.ofBits, Ideal.ieee]

/-- A one-bit word made from a Boolean is one exactly when the Boolean is true. -/
theorem ofBool_eq_one_iff_true (b : Bool) : BitVec.ofBool b = 1#1 ↔ b = true := by cases b <;> decide

/-- An extended real whose absolute value `max x (-x)` is below `⊤` is a real: at `⊥` and at `⊤` the maximum is `⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One array: if the `and` over all entries of the bit `|x i| < +∞` is one, every entry is a real. -/
theorem real_of_all_abs_lt [Cert.Pre_finite_inputs.Facts]
    (x : FVec Ideal Cert.Pre_finite_inputs.S8x16x1024x64 .f32)
    (h : Host.reduce IntOp.andi
          (cmpf .olt (Host.absf x)
            (broadcastInDim Cert.Pre_finite_inputs.S8x16x1024x64 ![] Cert.Pre_finite_inputs.Facts.bcast_S_S8x16x1024x64
              (constant Cert.Pre_finite_inputs.S_ .f32 0x7F800000#32)))
          (constantI Cert.Pre_finite_inputs.S_ 1 1#1)
          Cert.Pre_finite_inputs.Facts.reducesTo_S8x16x1024x64_S_d0_1_2_3 Cert.Pre_finite_inputs.Facts.h_S_ ix0 = 1#1)
    (i : Cert.Pre_finite_inputs.S8x16x1024x64.Idx) : ∃ r : ℝ, x i = (r : EReal) := by
  haveI : Subsingleton Cert.Pre_finite_inputs.S_.Idx := ⟨fun a b => funext fun d => d.elim0⟩
  have e := Host.reduce_andi_all _ _ _ _ _ h i
  have e' : BitVec.ofBool (decide (max (x i) (-(x i)) < Ideal.ofBits .f32 0x7F800000#32)) = 1#1 := e
  rw [ofBits_posInf, ofBool_eq_one_iff_true, decide_eq_true_eq] at e'
  exact real_of_abs_lt_top (x i) e'

/-- If `|x| < +∞` holds at every entry of the three arrays (the printed predicate is all ones), every entry is a real. -/
theorem finite_of_pre [Cert.Pre_finite_inputs.Facts]
    (x0 x1 x2 : FVec Ideal Cert.Pre_finite_inputs.S8x16x1024x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all_abs_lt x0 h0', real_of_all_abs_lt x1 h1, real_of_all_abs_lt x2 h2⟩

end Cert.Attn

end
-- ==== Proof.Consts.lean ====
/-
  THE THREE FLOAT CONSTANTS both programs spell, as the extended reals their bit patterns denote: the scale `0.125` is a
  real number, the row maximum starts from `-∞`, the row sum from `0`.
-/
import Idealize.ShloMosaic.PureOps.Ideal
import Idealize.ShloMosaic.PureOps.Ideal.Laws

noncomputable section

namespace Cert.Attn.Consts

open Idealize.ShloMosaic

/-- `0x3E000000` is `2⁻³`, a real. -/
theorem scale_real : ∃ r : ℝ, Ideal.ofBits .f32 0x3E000000#32 = (r : EReal) :=
  ⟨1 / 8, by simp [Ideal.ofBits, Ideal.ieee, -EReal.coe_mul]; norm_num⟩

/-- `0xFF800000` is `-∞`. -/
theorem lo_bot : Ideal.ofBits .f32 0xFF800000#32 = (⊥ : EReal) := by
  simp [Ideal.ofBits, Ideal.ieee]

/-- `0x00000000` is `0`. -/
theorem zero_zero : Ideal.ofBits .f32 0x00000000#32 = (0 : EReal) := Ideal.ofBits_zero_f32

end Cert.Attn.Consts

end
-- ==== Proof.lean ====
/-
  SCALED DOT-PRODUCT ATTENTION, a kernel against its jnp reference, over the extended reals.

  Both programs compute, for every batch `b`, head `h`, query row `r` and column `x`, the softmax-weighted mean
      out[b, h, r, x] = (∑ j, w j · v[b, h, j, x]) / ∑ j, w j,    w j = exp (s j - max_j s j),    s j = 0.125 · ⟨q[b, h, r], k[b, h, j]⟩.
  The kernel handles one `(b, h)` per grid point, in four chunks of 256 query rows; it scales the query before the inner
  product and divides the weighted sum once, by the weights' sum. The reference scales the inner product, takes the row
  maximum against `-∞` once more, and divides every weight by the sum before the weighted sum. On finite inputs the scores
  agree (distributivity over a finite sum of reals), the row maximum is a real, the weights' sum is a positive real, and
  dividing once is dividing termwise; at infinite inputs distributivity fails, which is why the precondition is used.

  LibSoftmax.lean states the two arrangements for one row and proves them equal on finite data; Softmax.lean and Law.lean
  lift that to whole arrays; ChunkValue.lean reads what the body
  stores for one chunk entry by entry; BlockValue.lean puts the four chunks and the 128 grid points together into the
  kernel's whole result; RefValue.lean reads the reference's result entry by entry; Finite.lean reads the precondition;
  Consts.lean evaluates the three constants. The frames are the generated ones; the idealization rewrote nothing.
-/
import proofs.«423221_j39676907887947_3_alg».proof.Defs
import proofs.«423221_j39676907887947_3_alg».proof.Proof.Gen.Kernel
import proofs.«423221_j39676907887947_3_alg».proof.Proof.Gen.Kernel.Skeleton
import proofs.«423221_j39676907887947_3_alg».proof.Proof.Gen.Kernel.Launch
import proofs.«423221_j39676907887947_3_alg».proof.Proof.Gen.Kernel.Points
import proofs.«423221_j39676907887947_3_alg».proof.Proof.Gen.Kernel.Frame
import proofs.«423221_j39676907887947_3_alg».proof.Proof.Gen.KernelIdeal
import proofs.«423221_j39676907887947_3_alg».proof.Proof.Gen.KernelIdeal.Skeleton
import proofs.«423221_j39676907887947_3_alg».proof.Proof.Gen.KernelIdeal.Launch
import proofs.«423221_j39676907887947_3_alg».proof.Proof.Gen.KernelIdeal.Points
import proofs.«423221_j39676907887947_3_alg».proof.Proof.Gen.KernelIdeal.Frame
import proofs.«423221_j39676907887947_3_alg».proof.Proof.Gen.ReferenceIdeal
import proofs.«423221_j39676907887947_3_alg».proof.Proof.Gen.Pre_finite_inputs
import proofs.«423221_j39676907887947_3_alg».proof.Proof.Gen.KernelIdeal.Value
import proofs.«423221_j39676907887947_3_alg».proof.Proof.Gen.ReferenceIdeal.Run
import proofs.«423221_j39676907887947_3_alg».proof.Proof.Gen.ReferenceIdeal.Read
import proofs.«423221_j39676907887947_3_alg».proof.Proof.BlockValue
import proofs.«423221_j39676907887947_3_alg».proof.Proof.RefValue
import proofs.«423221_j39676907887947_3_alg».proof.Proof.Law
import proofs.«423221_j39676907887947_3_alg».proof.Proof.Finite
import proofs.«423221_j39676907887947_3_alg».proof.Proof.Consts
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `attention` of the arguments: the kernel's by its blocks, the reference's in
    the normalised arrangement, which on the finite inputs the precondition grants is the same function. -/
theorem algebraic : Cert.algebraic_KernelIdeal_ReferenceIdeal := by
  intro m ρ m' ρ' hpre hagree
  refine ⟨fun c => Cert.Attn.attention Cert.Attn.Chunk.scale Cert.Attn.Chunk.lo
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Block.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Attn.finite_of_pre _ _ _ (hpre c)
  rw [Cert.ReferenceIdeal.Read.val_main_v14_eq, Cert.Attn.reference_eq, (hagree c).1, (hagree c).2.1, (hagree c).2.2]
  exact (Cert.Attn.attention_eq_normalised _ _ _ Cert.Attn.Consts.scale_real Cert.Attn.Consts.lo_bot
    Cert.Attn.Consts.zero_zero _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
